-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x1024x4096 : Shape := ⟨3, ![8, 1024, 4096]⟩
abbrev S8x1x4096 : Shape := ⟨3, ![8, 1, 4096]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x1x4096 : S_.BroadcastsInDim S8x1x4096 (![] : Fin 0 → Fin S8x1x4096.rank)
  reducesTo_S8x1x4096_S_d0_1_2 : S8x1x4096.ReducesTo [0, 1, 2] S_

variable [Facts]

def fn {F : FTy → Type} [FloatOps F] (main_arg0 : FVec F S8x4096x1024 .f32) (main_arg1 : FVec F S8x1024x4096 .f32) (main_arg2 : FVec F S8x1x4096 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1x4096 .f32 := Host.absf main_arg2
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  main_v13
-- ==== Kernel.lean ====
abbrev S8x4096x1024 : Shape := ⟨3, ![8, 4096, 1024]⟩
abbrev S8x1024x4096 : Shape := ⟨3, ![8, 1024, 4096]⟩
abbrev S8x1x4096 : Shape := ⟨3, ![8, 1, 4096]⟩
abbrev S8x4096x4096 : Shape := ⟨3, ![8, 4096, 4096]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x1024x4096, .f32⟩
  | .hbm, ⟨2, _⟩ => ⟨S8x1x4096, .f32⟩
  | .hbm, ⟨3, _⟩ => ⟨S8x4096x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x4096.size a
  hwx0_1 : ∀ i : grid0.Coords, EltTy.bits .f32 = 32 ∨ (Rect.block (s := S8x1024x4096) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x4096.size a
  hwx0_3 : ∀ i : grid0.Coords, EltTy.bits .f32 = 32 ∨ (Rect.block (s := S8x4096x4096) S1x1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x1024x4096 : Shape := ⟨3, ![8, 1024, 4096]⟩
abbrev S8x1x4096 : Shape := ⟨3, ![8, 1, 4096]⟩
abbrev S8x4096x4096 : Shape := ⟨3, ![8, 4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024x4096, .f32⟩
  | .hbm, ⟨2, _⟩ => ⟨S8x1x4096, .f32⟩
  | .hbm, ⟨3, _⟩ => ⟨S8x4096x4096, .f32⟩
  | .hbm, ⟨4, _⟩ => ⟨S8x4096x4096, .f32⟩
  | .hbm, ⟨5, _⟩ => ⟨S8x4096x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S8x1x4096_S8x4096x4096_0_1_2 : S8x1x4096.BroadcastsInDim S8x4096x4096 (![0, 1, 2] : Fin 3 → Fin S8x4096x4096.rank)
  dot_S8x4096x1024_S8x1024x4096_S8x4096x4096_2_1_1_2_0_0_wf : DotDims.WF S8x4096x1024 S8x1024x4096 S8x4096x4096 [2] [1] [1] [2] [0] [0]

variable [Facts₀]

def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf

class Facts : Prop extends Facts₀ where

variable [Facts]
-- ==== Proof.ExpertAffine.lean ====
/-
  The mathematics both programs compute: a per-expert affine map.  For expert `e`, token `c` and output feature
  `n`,

      y[e, c, n] = (∑ k < 1024, x[e, c, k] · w[e, k, n]) + b[e, 0, n]

  over the extended reals: the inner product of row `c` of expert `e`'s activations with column `n` of that
  expert's weight matrix, shifted by the expert's bias at `n` (the bias has one row per expert, shared by every
  token).  The function is stated once, over literal shapes, and each program's result is shown to be it.
-/
import Idealize.ShloMosaic.PureOps.Ideal
import Idealize.ShloMosaic.Lib.ValueIdx

noncomputable section

namespace Cert.ExpertAffine

open Idealize.ShloMosaic Idealize.ShloMosaic.ValueIdx

/-- The affine map at explicit coordinates: expert `e`, token `c`, output feature `n`. -/
def affineAt (x : FVec Ideal ⟨3, ![8, 4096, 1024]⟩ .f32) (w : FVec Ideal ⟨3, ![8, 1024, 4096]⟩ .f32)
    (b : FVec Ideal ⟨3, ![8, 1, 4096]⟩ .f32) (e : Fin 8) (c : Fin 4096) (n : Fin 4096) : EReal :=
  (∑ k : Fin 1024, x (ix3 e c k) * w (ix3 e k n)) + b (ix3 e (0 : Fin 1) n)

/-- The whole result array: `affineAt` at the index's three coordinates. -/
def expertAffine (x : FVec Ideal ⟨3, ![8, 4096, 1024]⟩ .f32) (w : FVec Ideal ⟨3, ![8, 1024, 4096]⟩ .f32)
    (b : FVec Ideal ⟨3, ![8, 1, 4096]⟩ .f32) : FVec Ideal ⟨3, ![8, 4096, 4096]⟩ .f32 :=
  fun i => affineAt x w b (i 0) (i 1) (i 2)

theorem expertAffine_apply (x : FVec Ideal ⟨3, ![8, 4096, 1024]⟩ .f32) (w : FVec Ideal ⟨3, ![8, 1024, 4096]⟩ .f32)
    (b : FVec Ideal ⟨3, ![8, 1, 4096]⟩ .f32) (e : Fin 8) (c : Fin 4096) (n : Fin 4096) :
    expertAffine x w b (ix3 e c n) = affineAt x w b e c n := rfl

end Cert.ExpertAffine

end
-- ==== Proof.ReferenceAffine.lean ====
/-
  The reference computes the per-expert affine map.  Its three host operations are a batched contraction (batch
  axis the expert, contracted axis the input feature), a broadcast of the bias along the token axis, and a sum.
  Read at an index (e, c, n): the contraction is ∑ k, x[e, c, k] · w[e, k, n]; the broadcast bias is b[e, 0, n];
  their sum is `affineAt` there.
-/
import proofs.«103666_j31885837205580_1_alg».proof.Proof.Gen.ReferenceIdeal.Read
import proofs.«103666_j31885837205580_1_alg».proof.Proof.ExpertAffine

noncomputable section

namespace Cert.ReferenceIdeal.RefValue

open Cert.ReferenceIdeal Cert.ReferenceIdeal.Gen Cert.ReferenceIdeal.Read Cert.ExpertAffine
open Idealize.ShloMosaic Idealize.ShloMosaic.ValueIdx

/-- The contraction's left operand index at (i, k) is (expert, token, k). -/
theorem lidx_eq (i : S8x4096x4096.Idx) (k : Fin 1024) : lidx_main_v0 i k = ix3 (i 0) (i 1) k :=
  funext fun a => Fin.ext (by match a with | ⟨0, _⟩ => rfl | ⟨1, _⟩ => rfl | ⟨2, _⟩ => rfl)

/-- The contraction's right operand index at (i, k) is (expert, k, output feature). -/
theorem ridx_eq (i : S8x4096x4096.Idx) (k : Fin 1024) : ridx_main_v0 i k = ix3 (i 0) k (i 2) :=
  funext fun a => Fin.ext (by match a with | ⟨0, _⟩ => rfl | ⟨1, _⟩ => rfl | ⟨2, _⟩ => rfl)

/-- The broadcast reads the bias at (expert, 0, output feature), whatever the token. -/
theorem bidx_eq (i : S8x4096x4096.Idx) : idx_main_v1 i = ix3 (i 0) (0 : Fin 1) (i 2) :=
  funext fun a => Fin.ext (by match a with | ⟨0, _⟩ => rfl | ⟨1, _⟩ => rfl | ⟨2, _⟩ => rfl)

/-- The reference's result, as a function of its three arguments, is the per-expert affine map. -/
theorem reference_eq (x : FVec Ideal S8x4096x1024 .f32) (w : FVec Ideal S8x1024x4096 .f32) (b : FVec Ideal S8x1x4096 .f32) :
    val_main_v2 (F := Ideal) x w b = expertAffine x w b := by
  funext i
  rw [val_main_v2_apply, val_main_v0_apply, val_main_v1_apply]
  simp only [lidx_eq, ridx_eq, bidx_eq]
  rfl

end Cert.ReferenceIdeal.RefValue

end
-- ==== Proof.TileValue.lean ====
/-
  One grid step's arithmetic.  The body loads a [1, 1024, 1024] tile of activations, a [1, 1024, 1024] tile of
  weights and a [1, 1, 1024] tile of bias, drops the leading unit axes, narrows the two matrix operands (the
  identity on extended reals), multiplies them into a zero accumulator, adds the bias row to every row of the
  product, and puts the unit axis back.  Read at (0, p, q) the stored value is

      (∑ k < 1024, xt[0, p, k] · wt[0, k, q]) + bt[0, 0, q].
-/
import proofs.«103666_j31885837205580_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen
open Idealize.ShloMosaic Idealize.ShloMosaic.ValueIdx

/-! ## The tile product's operand indices, axis by axis

The product contracts the left operand's axis 1 with the right operand's axis 0; there is no batch axis. -/

theorem lhs_tile_0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_tile_1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem rhs_tile_0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem rhs_tile_1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The tile product into a zero accumulator, at row `p` and column `q`: the plain inner product of row `p` of the
    left tile with column `q` of the right tile. -/
theorem tile_matmul (a : FVec Ideal S1024x1024 .bf16) (b : FVec Ideal S1024x1024 .bf16) (p q : Fin 1024) :
    matmul (F := Ideal) dot_S1024x1024_S1024x1024_S1024x1024_1_0_0_1_n_n none a b (constant S1024x1024 .f32 0x00000000#32) (ix2 p q)
      = ∑ k : Fin 1024, a (ix2 p k) * b (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_tile_0 _ _
    | ⟨1, _⟩ => exact (lhs_tile_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_tile_0 _ _).trans hk
    | ⟨1, _⟩ => exact rhs_tile_1 _ _)
  rw [el, er]

/-- The value one grid step stores, at (0, p, q), from the three tiles it loaded. -/
theorem tile_payload (xt : Vec Ideal S1x1024x1024 .f32) (wt : Vec Ideal S1x1024x1024 .f32) (bt : Vec Ideal S1x1x1024 .f32)
    (p q : Fin 1024) :
    k0_pay1 (F := Ideal) xt wt bt (ix3 (0 : Fin 1) p q)
      = (∑ k : Fin 1024, xt (ix3 (0 : Fin 1) p k) * wt (ix3 (0 : Fin 1) k q)) + bt (ix3 (0 : Fin 1) (0 : Fin 1) q) := by
  unfold k0_pay1
  refine (shapeCast_ab_1ab_apply _ _ (0 : Fin 1) p q).trans ?_
  rw [addf_apply]
  refine congrArg₂ (· + ·) ?_ ?_
  · refine (tile_matmul _ _ p q).trans ?_
    refine Finset.sum_congr rfl fun k _ => ?_
    rw [truncf_apply, truncf_apply, shapeCast_1ab_ab_apply, shapeCast_1ab_ab_apply]
  · refine (broadcastTo_1b_ab_apply _ _ p q).trans ?_
    exact shapeCast_1ab_ab_apply _ _ (0 : Fin 1) q

end Cert.KernelIdeal.TileValue

end
-- ==== Proof.KernelAffine.lean ====
/-
  From grid steps to the whole result.  The grid is (expert, token tile, feature tile) = 8 × 4 × 4; step
  (e, bi, bj) stages rows [1024·bi, 1024·bi + 1024) of expert `e`'s activations (all 1024 input features),
  columns [1024·bj, 1024·bj + 1024) of expert `e`'s weights (all 1024 input features) and the same columns of
  expert `e`'s bias row, and writes tile (e, bi, bj) of the result.  Entry (0, p, q) of what it writes is the
  affine map at (e, 1024·bi + p, 1024·bj + q): the contraction runs over the full input-feature axis inside one
  step, so no partial sums cross steps.  The 128 tiles are pairwise distinct and fill the [8, 4096, 4096] result,
  hence the result array after the run is the affine map of the three argument arrays.
-/
import proofs.«103666_j31885837205580_1_alg».proof.Proof.Gen.KernelIdeal.Value
import proofs.«103666_j31885837205580_1_alg».proof.Proof.TileValue
import proofs.«103666_j31885837205580_1_alg».proof.Proof.ExpertAffine

noncomputable section

namespace Cert.KernelIdeal.AffineValue

open Cert.KernelIdeal Cert.KernelIdeal.Gen Cert.ExpertAffine
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin3 : (![0, 0, 0] : Fin 3 → Nat) = fun _ => 0 := funext fun a => by fin_cases a <;> rfl

/-- How the four windows' tile indices relate at every grid step: the activations follow the result's expert and
    token tile and sit at feature tile 0; the weights and the bias follow the result's expert and feature tile and
    sit at tile 0 on their middle axis. -/
theorem tile_indices : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0
    ∧ win0_1.index t (2 : Fin 3) = win0_3.index t (2 : Fin 3)
    ∧ win0_2.index t (0 : Fin 3) = win0_3.index t (0 : Fin 3) ∧ win0_2.index t (1 : Fin 3) = 0
    ∧ win0_2.index t (2 : Fin 3) = win0_3.index t (2 : Fin 3) :=
  (by decide +kernel : ∀ t : Fin grid0.N, _)

/-- Every result tile (e, bi, bj) is some grid step's. -/
theorem tile_onto : ∀ (e : Fin 8) (bi : Fin 4) (bj : Fin 4), ∃ t : Fin cfg0.N, win0_3.index t = ![e.val, bi.val, bj.val] :=
  (by decide +kernel : ∀ (e : Fin 8) (bi : Fin 4) (bj : Fin 4), ∃ t : Fin grid0.N, win0_3.index t = ![e.val, bi.val, bj.val])

/-- What grid step `t` writes back is tile `t` of the affine map of the argument arrays. -/
theorem flushed_eq (c : Dev nD) (t : Fin cfg0.N) :
    (dats m 0 c).flushed 3 t = ((cfg0.win 3).blk t).view.read (Elt Ideal)
      (expertAffine (m ((c : Thread nD τ).loc main_arg0)) (m ((c : Thread nD τ).loc main_arg1)) (m ((c : Thread nD τ).loc main_arg2))) := by
  rw [Cert.KernelIdeal.Value.flushed3]
  unfold out0_3
  rw [View.canon_unit_zero origin3]
  simp only [View.ld_unit_zero (S := S1x1024x1024) origin3, View.ld_unit_zero (S := S1x1x1024) origin3]
  obtain ⟨x0, x1, x2, w0, w1, w2, b0, b1, b2⟩ := tile_indices t
  refine funext fun (j : S1x1024x1024.Idx) => ?_
  have hj0 : j 0 = (0 : Fin 1) := Fin.ext (by show (j 0).val = 0; have h : (j 0).val < 1 := (j 0).isLt; omega)
  obtain ⟨p, q, rfl⟩ : ∃ (p q : Fin 1024), j = ix3 (0 : Fin 1) p q :=
    ⟨j 1, j 2, (eq_ix3 j).trans (congrArg (fun z : Fin 1 => ix3 z (j 1) (j 2)) hj0)⟩
  show k0_pay1 (F := Ideal) (iblk m c 0 t) (iblk m c 1 t) (iblk m c 2 t) (ix3 (0 : Fin 1) p q)
    = expertAffine (V m c main_arg0) (V m c main_arg1) (V m c main_arg2) (((cfg0.win 3).blk t).view.emb (ix3 (0 : Fin 1) p q))
  refine (Cert.KernelIdeal.TileValue.tile_payload (iblk m c 0 t) (iblk m c 1 t) (iblk m c 2 t) p q).trans ?_
  unfold expertAffine affineAt
  have hx : ∀ k : Fin 1024, ((cfg0.win 0).blk t).view.emb (ix3 (0 : Fin 1) p k)
      = ix3 ((((cfg0.win 3).blk t).view.emb (ix3 (0 : Fin 1) p q)) 0) ((((cfg0.win 3).blk t).view.emb (ix3 (0 : Fin 1) p q)) 1) k := by
    intro k; funext a; apply Fin.ext
    match a with
    | ⟨0, _⟩ => show win0_0.index t (0 : Fin 3) * 1 + 1 * 0 = win0_3.index t (0 : Fin 3) * 1 + 1 * 0; omega
    | ⟨1, _⟩ => show win0_0.index t (1 : Fin 3) * 1024 + 1 * p.val = win0_3.index t (1 : Fin 3) * 1024 + 1 * p.val; omega
    | ⟨2, _⟩ => show win0_0.index t (2 : Fin 3) * 1024 + 1 * k.val = k.val; omega
  have hw : ∀ k : Fin 1024, ((cfg0.win 1).blk t).view.emb (ix3 (0 : Fin 1) k q)
      = ix3 ((((cfg0.win 3).blk t).view.emb (ix3 (0 : Fin 1) p q)) 0) k ((((cfg0.win 3).blk t).view.emb (ix3 (0 : Fin 1) p q)) 2) := by
    intro k; funext a; apply Fin.ext
    match a with
    | ⟨0, _⟩ => show win0_1.index t (0 : Fin 3) * 1 + 1 * 0 = win0_3.index t (0 : Fin 3) * 1 + 1 * 0; omega
    | ⟨1, _⟩ => show win0_1.index t (1 : Fin 3) * 1024 + 1 * k.val = k.val; omega
    | ⟨2, _⟩ => show win0_1.index t (2 : Fin 3) * 1024 + 1 * q.val = win0_3.index t (2 : Fin 3) * 1024 + 1 * q.val; omega
  have hb : ((cfg0.win 2).blk t).view.emb (ix3 (0 : Fin 1) (0 : Fin 1) q)
      = ix3 ((((cfg0.win 3).blk t).view.emb (ix3 (0 : Fin 1) p q)) 0) (0 : Fin 1) ((((cfg0.win 3).blk t).view.emb (ix3 (0 : Fin 1) p q)) 2) := by
    funext a; apply Fin.ext
    match a with
    | ⟨0, _⟩ => show win0_2.index t (0 : Fin 3) * 1 + 1 * 0 = win0_3.index t (0 : Fin 3) * 1 + 1 * 0; omega
    | ⟨1, _⟩ => show win0_2.index t (1 : Fin 3) * 1 + 1 * 0 = 0; omega
    | ⟨2, _⟩ => show win0_2.index t (2 : Fin 3) * 1024 + 1 * q.val = win0_3.index t (2 : Fin 3) * 1024 + 1 * q.val; omega
  refine congrArg₂ (· + ·) (Finset.sum_congr rfl fun k _ => congrArg₂ (· * ·) ?_ ?_) ?_
  · show V m c main_arg0 (((cfg0.win 0).blk t).view.emb (ix3 (0 : Fin 1) p k)) = _
    rw [hx k]; rfl
  · show V m c main_arg1 (((cfg0.win 1).blk t).view.emb (ix3 (0 : Fin 1) k q)) = _
    rw [hw k]; rfl
  · show V m c main_arg2 (((cfg0.win 2).blk t).view.emb (ix3 (0 : Fin 1) (0 : Fin 1) q)) = _
    rw [hb]; rfl

/-- An index of the result lies in step `t`'s tile iff each coordinate lies in the tile's range on its axis. -/
theorem mem_tile (t : Fin cfg0.N) (i : S8x4096x4096.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0).slice (win0_3.rect t)).set ↔ _
  rw [View.set_slice_whole, Rect.mem_set_unit]
  exact Iff.rfl

/-- Every index of the result lies in some step's tile: the tile of (e, c, n) is (e, c / 1024, n / 1024). -/
theorem covered (i : S8x4096x4096.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 4096 := (i 2).isLt
  obtain ⟨t, ht⟩ := tile_onto ⟨(i 0).val, hi0⟩ ⟨(i 1).val / 1024, by omega⟩ ⟨(i 2).val / 1024, by omega⟩
  have q0 : win0_3.index t (0 : Fin 3) = (i 0).val := congrFun ht 0
  have q1 : win0_3.index t (1 : Fin 3) = (i 1).val / 1024 := congrFun ht 1
  have q2 : win0_3.index t (2 : Fin 3) = (i 2).val / 1024 := congrFun ht 2
  refine ⟨t, flush0_3 t, ?_⟩
  rw [mem_tile]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- The result array after the run is the affine map of the argument arrays. -/
theorem final (c : Dev nD) : (dats m 0 c).arrAt 3 cfg0.N
    = expertAffine (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: it terminates with the result array at the affine map of the arguments, the arguments unchanged. -/
theorem run : θ_run defs (onTc (τ := τ) (main (F := Ideal))) ⟨m, fun _ => 0, ρ⟩ fun r => ∀ c : Dev nD,
      r.2.mem ((c : Thread nD τ).loc main_v0)
        = expertAffine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.AffineValue

end
-- ==== Proof.lean ====
/-
  A per-expert batched linear layer, tiled on a TensorCore grid, against its einsum reference, over the extended
  reals.

  Both programs compute  y[e, c, n] = (∑ k < 1024, x[e, c, k] · w[e, k, n]) + b[e, 0, n]  for 8 experts, 4096
  tokens and 4096 output features (`ExpertAffine.lean`).

  * The reference is a batched contraction, a broadcast of the bias over the token axis, and a sum; read at an
    index it is that formula (`ReferenceAffine.lean`, over the generated reads of its three operations).
  * The kernel walks an 8 × 4 × 4 grid of (expert, token tile, feature tile).  One step multiplies a 1024 × 1024
    tile of activations by a 1024 × 1024 tile of weights into a zero accumulator — the whole input-feature axis is
    contracted within the step — and adds the bias row (`TileValue.lean`); narrowing the operands before the
    product is the identity on extended reals.  The 128 output tiles partition the result, so the result array
    is the same formula of the argument arrays (`KernelAffine.lean`, over the generated blockwise value leg).

  Index by index the two sides are the same finite sum of the same products plus the same bias entry, so no
  algebraic law of the extended reals is used and the finiteness of the inputs is never opened.  The idealization rewrote no operation, so
  `preserves` has no conjunct.  The kernels' frames are the generated ones; the reference's frame is its generated run.
-/
import proofs.«103666_j31885837205580_1_alg».proof.Defs
import proofs.«103666_j31885837205580_1_alg».proof.Proof.Gen.Kernel
import proofs.«103666_j31885837205580_1_alg».proof.Proof.Gen.Kernel.Skeleton
import proofs.«103666_j31885837205580_1_alg».proof.Proof.Gen.Kernel.Launch
import proofs.«103666_j31885837205580_1_alg».proof.Proof.Gen.Kernel.Points
import proofs.«103666_j31885837205580_1_alg».proof.Proof.Gen.Kernel.Frame
import proofs.«103666_j31885837205580_1_alg».proof.Proof.Gen.KernelIdeal
import proofs.«103666_j31885837205580_1_alg».proof.Proof.Gen.KernelIdeal.Skeleton
import proofs.«103666_j31885837205580_1_alg».proof.Proof.Gen.KernelIdeal.Launch
import proofs.«103666_j31885837205580_1_alg».proof.Proof.Gen.KernelIdeal.Points
import proofs.«103666_j31885837205580_1_alg».proof.Proof.Gen.KernelIdeal.Frame
import proofs.«103666_j31885837205580_1_alg».proof.Proof.Gen.ReferenceIdeal
import proofs.«103666_j31885837205580_1_alg».proof.Proof.Gen.Pre_finite_inputs
import proofs.«103666_j31885837205580_1_alg».proof.Proof.Gen.KernelIdeal.Value
import proofs.«103666_j31885837205580_1_alg».proof.Proof.Gen.ReferenceIdeal.Run
import proofs.«103666_j31885837205580_1_alg».proof.Proof.Gen.ReferenceIdeal.Read
import proofs.«103666_j31885837205580_1_alg».proof.Proof.ExpertAffine
import proofs.«103666_j31885837205580_1_alg».proof.Proof.ReferenceAffine
import proofs.«103666_j31885837205580_1_alg».proof.Proof.TileValue
import proofs.«103666_j31885837205580_1_alg».proof.Proof.KernelAffine
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with their result array at the per-expert affine map of argument arrays that agree. -/
theorem algebraic : Cert.algebraic_KernelIdeal_ReferenceIdeal := by
  intro m ρ m' ρ' _ hagree
  refine ⟨_, Cert.KernelIdeal.AffineValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
